-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S4096x4096 : Shape := ⟨2, ![4096, 4096]⟩
abbrev S4096 : Shape := ⟨1, ![4096]⟩
abbrev S4096x16 : Shape := ⟨2, ![4096, 16]⟩
abbrev S16x4096 : Shape := ⟨2, ![16, 4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_
  bcast_S_S4096x16 : S_.BroadcastsInDim S4096x16 (![] : Fin 0 → Fin S4096x16.rank)
  reducesTo_S4096x16_S_d0_1 : S4096x16.ReducesTo [0, 1] S_
  bcast_S_S16x4096 : S_.BroadcastsInDim S16x4096 (![] : Fin 0 → Fin S16x4096.rank)
  reducesTo_S16x4096_S_d0_1 : S16x4096.ReducesTo [0, 1] S_
  reducesTo_S_S_d : S_.ReducesTo [] S_

variable [Facts]

def fn_part1 {F : FTy → Type} [FloatOps F] (main_arg4 : FVec F S16x4096 .f32) (main_arg5 : FVec F S_ .f32) (main_v13 : IVec S_ 1) (main_v16 : IVec S4096x16 1) : IVec S_ 1 :=
  let main_c_5 : IVec S_ 1 := constantI S_ 1 1#1
  let main_v17 : IVec S_ 1 := (fun x v => Host.reduce IntOp.andi x v reducesTo_S4096x16_S_d0_1 h_S_) main_v16 main_c_5
  let main_v18 : IVec S_ 1 := andi main_v13 main_v17
  let main_v19 : FVec F S16x4096 .f32 := Host.absf main_arg4
  let main_cst_6 : FVec F S_ .f32 := constant S_ .f32 0x7F800000#32
  let main_v20 : FVec F S16x4096 .f32 := broadcastInDim S16x4096 ![] bcast_S_S16x4096 main_cst_6
  let main_v21 : IVec S16x4096 1 := cmpf .olt main_v19 main_v20
  let main_c_7 : IVec S_ 1 := constantI S_ 1 1#1
  let main_v22 : IVec S_ 1 := (fun x v => Host.reduce IntOp.andi x v reducesTo_S16x4096_S_d0_1 h_S_) main_v21 main_c_7
  let main_v23 : IVec S_ 1 := andi main_v18 main_v22
  let main_v24 : FVec F S_ .f32 := Host.absf main_arg5
  let main_cst_8 : FVec F S_ .f32 := constant S_ .f32 0x7F800000#32
  let main_v25 : IVec S_ 1 := cmpf .olt main_v24 main_cst_8
  let main_c_9 : IVec S_ 1 := constantI S_ 1 1#1
  let main_v26 : IVec S_ 1 := (fun x v => Host.reduce IntOp.andi x v reducesTo_S_S_d h_S_) main_v25 main_c_9
  let main_v27 : IVec S_ 1 := andi main_v23 main_v26
  main_v27

def fn {F : FTy → Type} [FloatOps F] (main_arg0 : FVec F S8192x4096 .f32) (main_arg1 : FVec F S4096x4096 .f32) (main_arg2 : FVec F S4096 .f32) (main_arg3 : FVec F S4096x16 .f32) (main_arg4 : FVec F S16x4096 .f32) (main_arg5 : FVec F S_ .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_v14 : FVec F S4096x16 .f32 := Host.absf main_arg3
  let main_cst_4 : FVec F S_ .f32 := constant S_ .f32 0x7F800000#32
  let main_v15 : FVec F S4096x16 .f32 := broadcastInDim S4096x16 ![] bcast_S_S4096x16 main_cst_4
  let main_v16 : IVec S4096x16 1 := cmpf .olt main_v14 main_v15
  fn_part1 (F := F) main_arg4 main_arg5 main_v13 main_v16
-- ==== Kernel.lean ====
abbrev S8192x4096 : Shape := ⟨2, ![8192, 4096]⟩
abbrev S4096x4096 : Shape := ⟨2, ![4096, 4096]⟩
abbrev S4096 : Shape := ⟨1, ![4096]⟩
abbrev S4096x16 : Shape := ⟨2, ![4096, 16]⟩
abbrev S16x4096 : Shape := ⟨2, ![16, 4096]⟩
abbrev S_ : Shape := ⟨0, ![]⟩
abbrev S1x4096 : Shape := ⟨2, ![1, 4096]⟩
abbrev S512x1024 : Shape := ⟨2, ![512, 1024]⟩
abbrev S1024x1024 : Shape := ⟨2, ![1024, 1024]⟩
abbrev S1024x16 : Shape := ⟨2, ![1024, 16]⟩
abbrev S16x1024 : Shape := ⟨2, ![16, 1024]⟩
abbrev S1x1024 : Shape := ⟨2, ![1, 1024]⟩

abbrev nBuf : Space → Nat
  | .hbm => 14
  | .vmem => 13
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096, .f32⟩
  | .hbm, ⟨3, _⟩ => ⟨S4096x16, .f32⟩
  | .hbm, ⟨4, _⟩ => ⟨S16x4096, .f32⟩
  | .hbm, ⟨5, _⟩ => ⟨S_, .f32⟩
  | .hbm, ⟨6, _⟩ => ⟨S8192x4096, .bf16⟩
  | .hbm, ⟨7, _⟩ => ⟨S4096x4096, .bf16⟩
  | .hbm, ⟨8, _⟩ => ⟨S4096x16, .f32⟩
  | .hbm, ⟨9, _⟩ => ⟨S4096x16, .f32⟩
  | .hbm, ⟨10, _⟩ => ⟨S4096x16, .bf16⟩
  | .hbm, ⟨11, _⟩ => ⟨S16x4096, .bf16⟩
  | .hbm, ⟨12, _⟩ => ⟨S1x4096, .f32⟩
  | .hbm, ⟨13, _⟩ => ⟨S8192x4096, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x16, .bf16⟩
  | .local _ .vmem, ⟨5, _⟩ => ⟨S1024x16, .bf16⟩
  | .local _ .vmem, ⟨6, _⟩ => ⟨S16x1024, .bf16⟩
  | .local _ .vmem, ⟨7, _⟩ => ⟨S16x1024, .bf16⟩
  | .local _ .vmem, ⟨8, _⟩ => ⟨S1x1024, .f32⟩
  | .local _ .vmem, ⟨9, _⟩ => ⟨S1x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![16, 4, 4], ![false, false, false]⟩

def k0_cond2 (i : grid0.Coords) : BitVec 1 :=
  let arg2 : BitVec 32 := BitVec.ofNat 32 (i 2).val
  let c3_i32 : BitVec 32 := 3#32
  let v21 : BitVec 1 := Scalar.cmpi .eq arg2 c3_i32
  let v22 : BitVec 32 := Scalar.extui v21
  let c0_i32_13 : BitVec 32 := 0#32
  let v23 : BitVec 1 := Scalar.cmpi .ne v22 c0_i32_13
  v23

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x16 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S16x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, false, true]

abbrev stage0_4 : Fin 2 → Memref sig .tc .vmem S1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

class Facts₀ : Prop where
  bitsLt_bf16_f32 : FTy.bits .bf16 < FTy.bits .f32
  bcast_S_S4096x16 : S_.BroadcastsInDim S4096x16 (![] : Fin 0 → Fin S4096x16.rank)
  shapeCasts_S4096_S1x4096 : S4096.ShapeCasts S1x4096
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1024x16_S1024x16_0_0 : ∀ a, (![0, 0] : Fin 2 → Nat) a + S1024x16.size a ≤ S1024x16.size a
  h_S1024x16 : 0 < S1024x16.numel
  shapeCasts_S1024x16_S1024x16 : S1024x16.ShapeCasts S1024x16
  inb_S16x1024_S16x1024_0_0 : ∀ a, (![0, 0] : Fin 2 → Nat) a + S16x1024.size a ≤ S16x1024.size a
  h_S16x1024 : 0 < S16x1024.numel
  shapeCasts_S16x1024_S16x1024 : S16x1024.ShapeCasts S16x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  dot_S1024x16_S16x1024_S1024x1024_1_0_0_1_n_n_wf : DotDims.WF S1024x16 S16x1024 S1024x1024 [1] [0] [0] [1] [] []
  dot_S512x1024_S1024x1024_S512x1024_1_1_0_0_n_n_wf : DotDims.WF S512x1024 S1024x1024 S512x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S8192x4096.size a
  hwx0_0 : ∀ i : grid0.Coords, EltTy.bits .bf16 = 32 ∨ (Rect.block (s := S8192x4096) S512x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S4096x4096.size a
  hwx0_1 : ∀ i : grid0.Coords, EltTy.bits .bf16 = 32 ∨ (Rect.block (s := S4096x4096) S1024x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x16.size a ≤ S4096x16.size a
  hwx0_2 : ∀ i : grid0.Coords, EltTy.bits .bf16 = 32 ∨ (Rect.block (s := S4096x16) S1024x16.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S16x1024.size a ≤ S16x4096.size a
  hwx0_3 : ∀ i : grid0.Coords, EltTy.bits .bf16 = 32 ∨ (Rect.block (s := S16x4096) S16x1024.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x4096.size a
  hwx0_4 : ∀ i : grid0.Coords, EltTy.bits .f32 = 32 ∨ (Rect.block (s := S1x4096) S1x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x1024.size a ≤ S8192x4096.size a
  hwx0_5 : ∀ i : grid0.Coords, EltTy.bits .f32 = 32 ∨ (Rect.block (s := S8192x4096) S512x1024.size (cc0_transform_5 i) (hinb0_5 i)).WholeWords (EltTy.packing .f32)

variable [Facts₀]

def dot_S1024x16_S16x1024_S1024x1024_1_0_0_1_n_n : DotDims S1024x16 S16x1024 S1024x1024 where
  lhsContracting := [1]
  rhsContracting := [0]
  lhsNonContracting := [0]
  rhsNonContracting := [1]
  lhsBatch := []
  rhsBatch := []
  wf := dot_S1024x16_S16x1024_S1024x1024_1_0_0_1_n_n_wf
def dot_S512x1024_S1024x1024_S512x1024_1_1_0_0_n_n : DotDims S512x1024 S1024x1024 S512x1024 where
  lhsContracting := [1]
  rhsContracting := [1]
  lhsNonContracting := [0]
  rhsNonContracting := [0]
  lhsBatch := []
  rhsBatch := []
  wf := dot_S512x1024_S1024x1024_S512x1024_1_1_0_0_n_n_wf

abbrev win0_0 : Pipeline.Window sig grid0 :=
  Pipeline.Window.ofSpec (Memref.whole main_v0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1024x16.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v5) S16x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v6) S1x1024.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v7) S512x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond2 i == 1#1) | ⟨_ + 6, h⟩ => absurd h (Nat.not_lt.2 (Nat.le_add_left _ _))

class Facts : Prop extends Facts₀ where

variable [Facts]
-- ==== ReferenceIdeal.lean ====
abbrev S8192x4096 : Shape := ⟨2, ![8192, 4096]⟩
abbrev S4096x4096 : Shape := ⟨2, ![4096, 4096]⟩
abbrev S4096 : Shape := ⟨1, ![4096]⟩
abbrev S4096x16 : Shape := ⟨2, ![4096, 16]⟩
abbrev S16x4096 : Shape := ⟨2, ![16, 4096]⟩
abbrev S_ : Shape := ⟨0, ![]⟩
abbrev S1x4096 : Shape := ⟨2, ![1, 4096]⟩

abbrev nBuf : Space → Nat
  | .hbm => 14
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096, .f32⟩
  | .hbm, ⟨3, _⟩ => ⟨S4096x16, .f32⟩
  | .hbm, ⟨4, _⟩ => ⟨S16x4096, .f32⟩
  | .hbm, ⟨5, _⟩ => ⟨S_, .f32⟩
  | .hbm, ⟨6, _⟩ => ⟨S4096x4096, .f32⟩
  | .hbm, ⟨7, _⟩ => ⟨S4096x4096, .f32⟩
  | .hbm, ⟨8, _⟩ => ⟨S4096x4096, .f32⟩
  | .hbm, ⟨9, _⟩ => ⟨S4096x4096, .f32⟩
  | .hbm, ⟨10, _⟩ => ⟨S8192x4096, .f32⟩
  | .hbm, ⟨11, _⟩ => ⟨S1x4096, .f32⟩
  | .hbm, ⟨12, _⟩ => ⟨S8192x4096, .f32⟩
  | .hbm, ⟨13, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩

abbrev nD : Nat := 1
abbrev τ : Topo := Topo.v7x

variable {F : FTy → Type} [FloatOps F]

class Facts₀ : Prop where
  bcast_S_S4096x4096 : S_.BroadcastsInDim S4096x4096 (![] : Fin 0 → Fin S4096x4096.rank)
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  dot_S4096x16_S16x4096_S4096x4096_1_0_0_1_n_n_wf : DotDims.WF S4096x16 S16x4096 S4096x4096 [1] [0] [0] [1] [] []
  dot_S8192x4096_S4096x4096_S8192x4096_1_1_0_0_n_n_wf : DotDims.WF S8192x4096 S4096x4096 S8192x4096 [1] [1] [0] [0] [] []

variable [Facts₀]

def dot_S4096x16_S16x4096_S4096x4096_1_0_0_1_n_n : DotDims S4096x16 S16x4096 S4096x4096 where
  lhsContracting := [1]
  rhsContracting := [0]
  lhsNonContracting := [0]
  rhsNonContracting := [1]
  lhsBatch := []
  rhsBatch := []
  wf := dot_S4096x16_S16x4096_S4096x4096_1_0_0_1_n_n_wf
def dot_S8192x4096_S4096x4096_S8192x4096_1_1_0_0_n_n : DotDims S8192x4096 S4096x4096 S8192x4096 where
  lhsContracting := [1]
  rhsContracting := [1]
  lhsNonContracting := [0]
  rhsNonContracting := [0]
  lhsBatch := []
  rhsBatch := []
  wf := dot_S8192x4096_S4096x4096_S8192x4096_1_1_0_0_n_n_wf

class Facts : Prop extends Facts₀ where

variable [Facts]
-- ==== Proof.KernelPieces.lean ====
/-
  What one grid point leaves behind, as values.  The body keeps a running sum in a scratch block:
    * at the first step of a run over the contracted axis it stores zero, reads it back and stores `0 + d`;
    * at every later step it stores `acc + d` over what the step before left (`acc`);
    * at the last step it also stores `(acc + d) + bias` into the output block;
  where `d` is the step's partial product.  Each case's stores cover the whole block at zero offsets, so what is
  read back is the payload of the last store, its loads reading the whole input blocks.
-/
import proofs.«125330_j30451318128976_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Pieces

open Cert.KernelIdeal Cert.KernelIdeal.Gen

variable {F : FTy → Type} [FloatOps F]

theorem hz : (![0, 0] : Fin 2 → Nat) = fun _ => 0 := funext fun a => by fin_cases a <;> rfl

/-- First step of a run: the scratch ends at `zero + d`. -/
theorem scratch_A (c : Dev nD) (i : grid0.Coords) (arg3 : Memref sig .tc .vmem S512x1024 .bf16) (harg3 : arg3.IsWhole) (arg4 : Memref sig .tc .vmem S1024x1024 .bf16) (harg4 : arg4.IsWhole) (arg5 : Memref sig .tc .vmem S1024x16 .bf16) (harg5 : arg5.IsWhole) (arg6 : Memref sig .tc .vmem S16x1024 .bf16) (harg6 : arg6.IsWhole) (arg7 : Memref sig .tc .vmem S1x1024 .f32) (harg7 : arg7.IsWhole) (arg8 : Memref sig .tc .vmem S512x1024 .f32) (harg8 : arg8.IsWhole) (arg9 : Memref sig .tc .vmem S512x1024 .f32) (harg9 : arg9.IsWhole) (hc0 : cond0_0 i) (hc1 : ¬cond0_1 i) (x0 : Vec F S512x1024 .bf16) (x1 : Vec F S1024x1024 .bf16) (x2 : Vec F S1024x16 .bf16) (x3 : Vec F S16x1024 .bf16) (x4 : Vec F S1x1024 .f32) :
    sout0_A_0 c i arg3 harg3 arg4 harg4 arg5 harg5 arg6 harg6 arg7 harg7 arg8 harg8 arg9 harg9 hc0 hc1 x0 x1 x2 x3 x4 = k0_pay2 x2 x3 x1 (k0_pay1 (F := F)) x0 := by
  unfold sout0_A_0
  rw [View.read_writes_eq_canon _ _ _ (scover0_A_0 c i arg3 harg3 arg4 harg4 arg5 harg5 arg6 harg6 arg7 harg7 arg8 harg8 arg9 harg9 hc0 hc1 x0 x1 x2 x3 x4)]
  unfold kernelRun0_A
  dsimp only
  sl_unfold_words
  rw [View.canon_cons_unit_zero (S := S512x1024) hz, View.readCov_unit_zero (S := S512x1024) _ hz]
  simp only [View.readAt_eq_ld, harg3.read_unread, harg4.read_unread, harg5.read_unread, harg6.read_unread,
    harg7.read_unread, harg9.read_unread, View.ld_unit_zero (S := S512x1024) hz, View.ld_unit_zero (S := S1024x1024) hz,
    View.ld_unit_zero (S := S1024x16) hz, View.ld_unit_zero (S := S16x1024) hz, View.ld_unit_zero (S := S1x1024) hz]

/-- A middle step: the scratch ends at `acc + d`. -/
theorem scratch_B (c : Dev nD) (i : grid0.Coords) (arg3 : Memref sig .tc .vmem S512x1024 .bf16) (harg3 : arg3.IsWhole) (arg4 : Memref sig .tc .vmem S1024x1024 .bf16) (harg4 : arg4.IsWhole) (arg5 : Memref sig .tc .vmem S1024x16 .bf16) (harg5 : arg5.IsWhole) (arg6 : Memref sig .tc .vmem S16x1024 .bf16) (harg6 : arg6.IsWhole) (arg7 : Memref sig .tc .vmem S1x1024 .f32) (harg7 : arg7.IsWhole) (arg8 : Memref sig .tc .vmem S512x1024 .f32) (harg8 : arg8.IsWhole) (arg9 : Memref sig .tc .vmem S512x1024 .f32) (harg9 : arg9.IsWhole) (hc0 : ¬cond0_0 i) (hc1 : ¬cond0_1 i) (x0 : Vec F S512x1024 .bf16) (x1 : Vec F S1024x1024 .bf16) (x2 : Vec F S1024x16 .bf16) (x3 : Vec F S16x1024 .bf16) (x4 : Vec F S1x1024 .f32) (xs0 : Vec F S512x1024 .f32) :
    sout0_B_0 c i arg3 harg3 arg4 harg4 arg5 harg5 arg6 harg6 arg7 harg7 arg8 harg8 arg9 harg9 hc0 hc1 x0 x1 x2 x3 x4 xs0 = k0_pay2 x2 x3 x1 xs0 x0 := by
  unfold sout0_B_0
  rw [View.read_writes_eq_canon _ _ _ (scover0_B_0 c i arg3 harg3 arg4 harg4 arg5 harg5 arg6 harg6 arg7 harg7 arg8 harg8 arg9 harg9 hc0 hc1 x0 x1 x2 x3 x4 xs0)]
  unfold kernelRun0_B
  dsimp only
  sl_unfold_words
  rw [View.canon_unit_zero hz]
  simp only [View.readAt_eq_ld, harg3.read_unread, harg4.read_unread, harg5.read_unread, harg6.read_unread,
    harg7.read_unread, harg9.read_unread, View.ld_unit_zero (S := S512x1024) hz, View.ld_unit_zero (S := S1024x1024) hz,
    View.ld_unit_zero (S := S1024x16) hz, View.ld_unit_zero (S := S16x1024) hz, View.ld_unit_zero (S := S1x1024) hz]

/-- The last step: the scratch ends at `acc + d` … -/
theorem scratch_C (c : Dev nD) (i : grid0.Coords) (arg3 : Memref sig .tc .vmem S512x1024 .bf16) (harg3 : arg3.IsWhole) (arg4 : Memref sig .tc .vmem S1024x1024 .bf16) (harg4 : arg4.IsWhole) (arg5 : Memref sig .tc .vmem S1024x16 .bf16) (harg5 : arg5.IsWhole) (arg6 : Memref sig .tc .vmem S16x1024 .bf16) (harg6 : arg6.IsWhole) (arg7 : Memref sig .tc .vmem S1x1024 .f32) (harg7 : arg7.IsWhole) (arg8 : Memref sig .tc .vmem S512x1024 .f32) (harg8 : arg8.IsWhole) (arg9 : Memref sig .tc .vmem S512x1024 .f32) (harg9 : arg9.IsWhole) (hc0 : ¬cond0_0 i) (hc1 : cond0_1 i) (x0 : Vec F S512x1024 .bf16) (x1 : Vec F S1024x1024 .bf16) (x2 : Vec F S1024x16 .bf16) (x3 : Vec F S16x1024 .bf16) (x4 : Vec F S1x1024 .f32) (xs0 : Vec F S512x1024 .f32) :
    sout0_C_0 c i arg3 harg3 arg4 harg4 arg5 harg5 arg6 harg6 arg7 harg7 arg8 harg8 arg9 harg9 hc0 hc1 x0 x1 x2 x3 x4 xs0 = k0_pay2 x2 x3 x1 xs0 x0 := by
  unfold sout0_C_0
  rw [View.read_writes_eq_canon _ _ _ (scover0_C_0 c i arg3 harg3 arg4 harg4 arg5 harg5 arg6 harg6 arg7 harg7 arg8 harg8 arg9 harg9 hc0 hc1 x0 x1 x2 x3 x4 xs0)]
  unfold kernelRun0_C
  dsimp only
  sl_unfold_words
  rw [View.canon_unit_zero hz]
  simp only [View.readAt_eq_ld, harg3.read_unread, harg4.read_unread, harg5.read_unread, harg6.read_unread,
    harg7.read_unread, harg9.read_unread, View.ld_unit_zero (S := S512x1024) hz, View.ld_unit_zero (S := S1024x1024) hz,
    View.ld_unit_zero (S := S1024x16) hz, View.ld_unit_zero (S := S16x1024) hz, View.ld_unit_zero (S := S1x1024) hz]

/-- … and the output block at `(acc + d) + bias`. -/
theorem out_C (c : Dev nD) (i : grid0.Coords) (arg3 : Memref sig .tc .vmem S512x1024 .bf16) (harg3 : arg3.IsWhole) (arg4 : Memref sig .tc .vmem S1024x1024 .bf16) (harg4 : arg4.IsWhole) (arg5 : Memref sig .tc .vmem S1024x16 .bf16) (harg5 : arg5.IsWhole) (arg6 : Memref sig .tc .vmem S16x1024 .bf16) (harg6 : arg6.IsWhole) (arg7 : Memref sig .tc .vmem S1x1024 .f32) (harg7 : arg7.IsWhole) (arg8 : Memref sig .tc .vmem S512x1024 .f32) (harg8 : arg8.IsWhole) (arg9 : Memref sig .tc .vmem S512x1024 .f32) (harg9 : arg9.IsWhole) (hc0 : ¬cond0_0 i) (hc1 : cond0_1 i) (x0 : Vec F S512x1024 .bf16) (x1 : Vec F S1024x1024 .bf16) (x2 : Vec F S1024x16 .bf16) (x3 : Vec F S16x1024 .bf16) (x4 : Vec F S1x1024 .f32) (xs0 : Vec F S512x1024 .f32) :
    out0_C_5 c i arg3 harg3 arg4 harg4 arg5 harg5 arg6 harg6 arg7 harg7 arg8 harg8 arg9 harg9 hc0 hc1 x0 x1 x2 x3 x4 xs0 = k0_pay3 (k0_pay2 x2 x3 x1 xs0 x0) x4 := by
  unfold out0_C_5
  rw [View.read_writes_eq_canon _ _ _ (cover0_C_5 c i arg3 harg3 arg4 harg4 arg5 harg5 arg6 harg6 arg7 harg7 arg8 harg8 arg9 harg9 hc0 hc1 x0 x1 x2 x3 x4 xs0)]
  unfold kernelRun0_C
  dsimp only
  sl_unfold_words
  rw [View.canon_unit_zero hz, View.readCov_unit_zero (S := S512x1024) _ hz]
  simp only [View.readAt_eq_ld, harg3.read_unread, harg4.read_unread, harg5.read_unread, harg6.read_unread,
    harg7.read_unread, harg9.read_unread, View.ld_unit_zero (S := S512x1024) hz, View.ld_unit_zero (S := S1024x1024) hz,
    View.ld_unit_zero (S := S1024x16) hz, View.ld_unit_zero (S := S16x1024) hz, View.ld_unit_zero (S := S1x1024) hz]

end Cert.KernelIdeal.Pieces

end
-- ==== Proof.KernelPayload.lean ====
/-
  The body's arithmetic at one entry of the block, over the extended reals (conversions between float formats are
  the identity there).  At row `p`, column `q` of the [512, 1024] block one step adds to the running sum
      Σ_{k < 1024} x[p, k] · (W[q, k] + Σ_{r < 16} B[q, r] · A[r, k]),
  the contraction of the `x` block with the adapted weight block along the last axis of both, the low-rank product
  started from zero; the final store adds the bias row's entry `bias[0, q]`.
-/
import proofs.«125330_j30451318128976_1_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelIdeal.Payload

open Cert.KernelIdeal Cert.KernelIdeal.Gen Idealize.ShloMosaic Idealize.ShloMosaic.ValueIdx

/-! ## The low-rank product `B @ A`: contract `B`'s second axis with `A`'s first -/

theorem lhs_ba_0 (i : S1024x1024.Idx) (q : dot_S1024x16_S16x1024_S1024x1024_1_0_0_1_n_n.contr.Idx) :
    (dot_S1024x16_S16x1024_S1024x1024_1_0_0_1_n_n.lhsIdx i q 0).val = (i 0).val := by
  unfold DotDims.lhsIdx
  rw [dif_neg (show ¬(0 : Fin S1024x16.rank) ∈ dot_S1024x16_S16x1024_S1024x1024_1_0_0_1_n_n.lhsBatch by decide), dif_pos (show (0 : Fin S1024x16.rank) ∈ dot_S1024x16_S16x1024_S1024x1024_1_0_0_1_n_n.lhsNonContracting by decide)]
  rfl
theorem lhs_ba_1 (i : S1024x1024.Idx) (q : dot_S1024x16_S16x1024_S1024x1024_1_0_0_1_n_n.contr.Idx) :
    (dot_S1024x16_S16x1024_S1024x1024_1_0_0_1_n_n.lhsIdx i q 1).val = (q ⟨0, by decide⟩).val :=
  dot_S1024x16_S16x1024_S1024x1024_1_0_0_1_n_n.lhsIdx_val_of_single rfl i q
theorem rhs_ba_0 (i : S1024x1024.Idx) (q : dot_S1024x16_S16x1024_S1024x1024_1_0_0_1_n_n.contr.Idx) :
    (dot_S1024x16_S16x1024_S1024x1024_1_0_0_1_n_n.rhsIdx i q 0).val = (q ⟨0, by decide⟩).val :=
  dot_S1024x16_S16x1024_S1024x1024_1_0_0_1_n_n.rhsIdx_val_of_single rfl i q
theorem rhs_ba_1 (i : S1024x1024.Idx) (q : dot_S1024x16_S16x1024_S1024x1024_1_0_0_1_n_n.contr.Idx) :
    (dot_S1024x16_S16x1024_S1024x1024_1_0_0_1_n_n.rhsIdx i q 1).val = (i 1).val := by
  unfold DotDims.rhsIdx
  rw [dif_neg (show ¬(1 : Fin S16x1024.rank) ∈ dot_S1024x16_S16x1024_S1024x1024_1_0_0_1_n_n.rhsBatch by decide), dif_pos (show (1 : Fin S16x1024.rank) ∈ dot_S1024x16_S16x1024_S1024x1024_1_0_0_1_n_n.rhsNonContracting by decide)]
  rfl

/-- Entry `(q, r)` of the `B` block, for the weight entry `i = (q, k)`. -/
abbrev bix (i : S1024x1024.Idx) (r : Fin 16) : S1024x16.Idx := fun a => match a with
  | ⟨0, _⟩ => ⟨(i 0).val, (i 0).isLt⟩
  | ⟨1, _⟩ => ⟨r.val, r.isLt⟩
/-- Entry `(r, k)` of the `A` block, for the weight entry `i = (q, k)`. -/
abbrev aix (i : S1024x1024.Idx) (r : Fin 16) : S16x1024.Idx := fun a => match a with
  | ⟨0, _⟩ => ⟨r.val, r.isLt⟩
  | ⟨1, _⟩ => ⟨(i 1).val, (i 1).isLt⟩

/-- The low-rank product into a zero accumulator, at a weight entry: `Σ_r B[q, r] · A[r, k]`. -/
theorem lowrank_apply (b : FVec Ideal S1024x16 .bf16) (a : FVec Ideal S16x1024 .bf16) (i : S1024x1024.Idx) :
    matmul dot_S1024x16_S16x1024_S1024x1024_1_0_0_1_n_n none b a (constant S1024x1024 .f32 0x00000000#32) i
      = ∑ r : Fin 16, b (bix i r) * a (aix i r) := by
  simp only [matmul]
  rw [Ideal.matmul_constant_zero_apply, ← Equiv.sum_comp (contrEquiv1 dot_S1024x16_S16x1024_S1024x1024_1_0_0_1_n_n 16 rfl rfl).symm]
  refine Finset.sum_congr rfl fun k _ => ?_
  have hk := contrEquiv1_symm_val dot_S1024x16_S16x1024_S1024x1024_1_0_0_1_n_n 16 rfl rfl k
  have el : dot_S1024x16_S16x1024_S1024x1024_1_0_0_1_n_n.lhsIdx i ((contrEquiv1 dot_S1024x16_S16x1024_S1024x1024_1_0_0_1_n_n 16 rfl rfl).symm k) = bix i k := funext fun a => Fin.ext (by
    match a with
    | ⟨0, _⟩ => exact lhs_ba_0 _ _
    | ⟨1, _⟩ => exact (lhs_ba_1 _ _).trans hk)
  have er : dot_S1024x16_S16x1024_S1024x1024_1_0_0_1_n_n.rhsIdx i ((contrEquiv1 dot_S1024x16_S16x1024_S1024x1024_1_0_0_1_n_n 16 rfl rfl).symm k) = aix i k := funext fun a => Fin.ext (by
    match a with
    | ⟨0, _⟩ => exact (rhs_ba_0 _ _).trans hk
    | ⟨1, _⟩ => exact rhs_ba_1 _ _)
  rw [el, er]

/-! ## The main product: contract `x`'s second axis with the weight's second axis -/

theorem lhs_xw_0 (i : S512x1024.Idx) (q : dot_S512x1024_S1024x1024_S512x1024_1_1_0_0_n_n.contr.Idx) :
    (dot_S512x1024_S1024x1024_S512x1024_1_1_0_0_n_n.lhsIdx i q 0).val = (i 0).val := by
  unfold DotDims.lhsIdx
  rw [dif_neg (show ¬(0 : Fin S512x1024.rank) ∈ dot_S512x1024_S1024x1024_S512x1024_1_1_0_0_n_n.lhsBatch by decide), dif_pos (show (0 : Fin S512x1024.rank) ∈ dot_S512x1024_S1024x1024_S512x1024_1_1_0_0_n_n.lhsNonContracting by decide)]
  rfl
theorem lhs_xw_1 (i : S512x1024.Idx) (q : dot_S512x1024_S1024x1024_S512x1024_1_1_0_0_n_n.contr.Idx) :
    (dot_S512x1024_S1024x1024_S512x1024_1_1_0_0_n_n.lhsIdx i q 1).val = (q ⟨0, by decide⟩).val :=
  dot_S512x1024_S1024x1024_S512x1024_1_1_0_0_n_n.lhsIdx_val_of_single rfl i q
theorem rhs_xw_0 (i : S512x1024.Idx) (q : dot_S512x1024_S1024x1024_S512x1024_1_1_0_0_n_n.contr.Idx) :
    (dot_S512x1024_S1024x1024_S512x1024_1_1_0_0_n_n.rhsIdx i q 0).val = (i 1).val := by
  unfold DotDims.rhsIdx
  rw [dif_neg (show ¬(0 : Fin S1024x1024.rank) ∈ dot_S512x1024_S1024x1024_S512x1024_1_1_0_0_n_n.rhsBatch by decide), dif_pos (show (0 : Fin S1024x1024.rank) ∈ dot_S512x1024_S1024x1024_S512x1024_1_1_0_0_n_n.rhsNonContracting by decide)]
  rfl
theorem rhs_xw_1 (i : S512x1024.Idx) (q : dot_S512x1024_S1024x1024_S512x1024_1_1_0_0_n_n.contr.Idx) :
    (dot_S512x1024_S1024x1024_S512x1024_1_1_0_0_n_n.rhsIdx i q 1).val = (q ⟨0, by decide⟩).val :=
  dot_S512x1024_S1024x1024_S512x1024_1_1_0_0_n_n.rhsIdx_val_of_single rfl i q

/-- Entry `(p, k)` of the `x` block, for the output entry `j = (p, q)`. -/
abbrev xix (j : S512x1024.Idx) (k : Fin 1024) : S512x1024.Idx := fun a => match a with
  | ⟨0, _⟩ => ⟨(j 0).val, (j 0).isLt⟩
  | ⟨1, _⟩ => ⟨k.val, k.isLt⟩
/-- Entry `(q, k)` of the weight block, for the output entry `j = (p, q)`. -/
abbrev wix (j : S512x1024.Idx) (k : Fin 1024) : S1024x1024.Idx := fun a => match a with
  | ⟨0, _⟩ => ⟨(j 1).val, (j 1).isLt⟩
  | ⟨1, _⟩ => ⟨k.val, k.isLt⟩

/-- The main product into a zero accumulator, at an output entry: `Σ_k x[p, k] · w[q, k]`. -/
theorem main_apply (x : FVec Ideal S512x1024 .bf16) (w : FVec Ideal S1024x1024 .bf16) (j : S512x1024.Idx) :
    matmul dot_S512x1024_S1024x1024_S512x1024_1_1_0_0_n_n none x w (constant S512x1024 .f32 0x00000000#32) j
      = ∑ k : Fin 1024, x (xix j k) * w (wix j k) := by
  simp only [matmul]
  rw [Ideal.matmul_constant_zero_apply, ← Equiv.sum_comp (contrEquiv1 dot_S512x1024_S1024x1024_S512x1024_1_1_0_0_n_n 1024 rfl rfl).symm]
  refine Finset.sum_congr rfl fun k _ => ?_
  have hk := contrEquiv1_symm_val dot_S512x1024_S1024x1024_S512x1024_1_1_0_0_n_n 1024 rfl rfl k
  have el : dot_S512x1024_S1024x1024_S512x1024_1_1_0_0_n_n.lhsIdx j ((contrEquiv1 dot_S512x1024_S1024x1024_S512x1024_1_1_0_0_n_n 1024 rfl rfl).symm k) = xix j k := funext fun a => Fin.ext (by
    match a with
    | ⟨0, _⟩ => exact lhs_xw_0 _ _
    | ⟨1, _⟩ => exact (lhs_xw_1 _ _).trans hk)
  have er : dot_S512x1024_S1024x1024_S512x1024_1_1_0_0_n_n.rhsIdx j ((contrEquiv1 dot_S512x1024_S1024x1024_S512x1024_1_1_0_0_n_n 1024 rfl rfl).symm k) = wix j k := funext fun a => Fin.ext (by
    match a with
    | ⟨0, _⟩ => exact rhs_xw_0 _ _
    | ⟨1, _⟩ => exact (rhs_xw_1 _ _).trans hk)
  rw [el, er]

/-! ## The payloads -/

/-- One step's addend at an output entry: `Σ_k x[p, k] · (W[q, k] + Σ_r B[q, r] · A[r, k])`. -/
def addend (b : Vec Ideal S1024x16 .bf16) (a : Vec Ideal S16x1024 .bf16) (w : Vec Ideal S1024x1024 .bf16)
    (x : Vec Ideal S512x1024 .bf16) (j : S512x1024.Idx) : EReal :=
  ∑ k : Fin 1024, x (xix j k) * (w (wix j k) + ∑ r : Fin 16, b (bix (wix j k) r) * a (aix (wix j k) r))

/-- The accumulating store's payload at an entry: the running sum there plus the step's addend. -/
theorem pay2_apply (b : Vec Ideal S1024x16 .bf16) (a : Vec Ideal S16x1024 .bf16) (w : Vec Ideal S1024x1024 .bf16)
    (acc : Vec Ideal S512x1024 .f32) (x : Vec Ideal S512x1024 .bf16) (j : S512x1024.Idx) :
    k0_pay2 (F := Ideal) b a w acc x j = acc j + addend b a w x j := by
  unfold k0_pay2 addend
  simp only [shapeCast_self]
  rw [addf_apply, main_apply]
  refine congrArg (acc j + ·) (Finset.sum_congr rfl fun k _ => ?_)
  rw [truncf_apply, addf_apply, extf_apply, lowrank_apply]

/-- The reset store's payload is zero everywhere. -/
theorem pay1_apply (j : S512x1024.Idx) : k0_pay1 (F := Ideal) j = 0 := by
  unfold k0_pay1
  simp only [shapeCast_self]
  exact Ideal.ofBits_zero_f32

/-- The final store's payload at an entry: the running sum there plus the bias row's entry in that column. -/
theorem pay3_apply (acc : Vec Ideal S512x1024 .f32) (bias : Vec Ideal S1x1024 .f32) (j : S512x1024.Idx) :
    k0_pay3 (F := Ideal) acc bias j = acc j + bias (ix2 (0 : Fin 1) (⟨(j 1).val, (j 1).isLt⟩ : Fin 1024)) := by
  unfold k0_pay3
  simp only [shapeCast_self]
  rw [addf_apply]
  refine congrArg (acc j + ·) ?_
  exact broadcastTo_apply _ broadcasts_S1x1024_S512x1024 j _ (fun a => by
    match a with
    | ⟨0, _⟩ => rfl
    | ⟨1, _⟩ => rfl)

end Cert.KernelIdeal.Payload

end
-- ==== Proof.KernelBlocks.lean ====
/-
  Where the blocks come from.  The grid point `t` of the 16 × 4 × 4 grid is (row tile, feature tile, step) =
  (t / 16, t / 4 % 4, t % 4).  Before the region @main casts `x`, `W`, `A` to the narrow format (the identity on
  extended reals), multiplies `B` by the broadcast scalar and casts it, and reshapes the bias to one row.  So at
  point `t`, at local coordinates:
    * the `x` block's entry (p, k) is   x[512·(t/16) + p, 1024·(t%4) + k];
    * the `W` block's entry (q, k) is   W[1024·(t/4%4) + q, 1024·(t%4) + k];
    * the `B` block's entry (q, r) is   B[1024·(t/4%4) + q, r] · s;
    * the `A` block's entry (r, k) is   A[r, 1024·(t%4) + k];
    * the bias block's entry (0, q) is  bias[1024·(t/4%4) + q].
-/
import proofs.«125330_j30451318128976_1_alg».proof.Proof.Gen.KernelIdeal.Frame
import Idealize.ShloMosaic.Lib.Pipeline.Value
import Idealize.ShloMosaic.Lib.StableHlo.Run
import Idealize.ShloMosaic.Lib.ValueIdx
import Idealize.ShloMosaic.Lib.ValueLayout

noncomputable section

open Idealize.ShloMosaic Idealize.ShloMosaic.TcCoe Idealize.SL.Sem

namespace Cert.KernelIdeal.Blocks

open Cert.KernelIdeal Cert.KernelIdeal.Gen Idealize.ShloMosaic.ValueIdx

variable (m : (ℓ : Loc nD τ sig) → Buf (Elt Ideal) ℓ)

/-! ## The input blocks at a point, at their literal types -/

abbrev xblk (c : Dev nD) (t : Fin cfg0.N) : Vec Ideal S512x1024 .bf16 := iblk m c 0 t
abbrev wblk (c : Dev nD) (t : Fin cfg0.N) : Vec Ideal S1024x1024 .bf16 := iblk m c 1 t
abbrev bblk (c : Dev nD) (t : Fin cfg0.N) : Vec Ideal S1024x16 .bf16 := iblk m c 2 t
abbrev ablk (c : Dev nD) (t : Fin cfg0.N) : Vec Ideal S16x1024 .bf16 := iblk m c 3 t
abbrev biasblk (c : Dev nD) (t : Fin cfg0.N) : Vec Ideal S1x1024 .f32 := iblk m c 4 t

/-! ## The argument arrays, at their literal types -/

abbrev X (c : Dev nD) : FVec Ideal S8192x4096 .f32 := m ((c : Thread nD τ).loc main_arg0)
abbrev W (c : Dev nD) : FVec Ideal S4096x4096 .f32 := m ((c : Thread nD τ).loc main_arg1)
abbrev Bias (c : Dev nD) : FVec Ideal S4096 .f32 := m ((c : Thread nD τ).loc main_arg2)
abbrev B (c : Dev nD) : FVec Ideal S4096x16 .f32 := m ((c : Thread nD τ).loc main_arg3)
abbrev A (c : Dev nD) : FVec Ideal S16x4096 .f32 := m ((c : Thread nD τ).loc main_arg4)
abbrev Sc (c : Dev nD) : FVec Ideal S_ .f32 := m ((c : Thread nD τ).loc main_arg5)

/-! ## What @main wrote before the region -/

theorem V_v0 (c : Dev nD) : (V m c main_v0 : S8192x4096.Idx → EReal) = X m c := by
  dsimp only [V, hostOps0]; after_results; rfl

theorem V_v1 (c : Dev nD) : (V m c main_v1 : S4096x4096.Idx → EReal) = W m c := by
  dsimp only [V, hostOps0]; after_results; rfl

theorem V_v4 (c : Dev nD) : (V m c main_v4 : S4096x16.Idx → EReal)
    = mulf (B m c) (broadcastInDim S4096x16 ![] bcast_S_S4096x16 (Sc m c)) := by
  dsimp only [V, hostOps0]; after_results; rfl

theorem V_v5 (c : Dev nD) : (V m c main_v5 : S16x4096.Idx → EReal) = A m c := by
  dsimp only [V, hostOps0]; after_results; rfl

theorem V_v6 (c : Dev nD) : (V m c main_v6 : S1x4096.Idx → EReal)
    = shapeCast S1x4096 (Bias m c) shapeCasts_S4096_S1x4096 := by
  dsimp only [V, hostOps0]; after_results; rfl

/-! ## The index maps, decided once over the grid -/

theorem idx_x : ∀ t : Fin cfg0.N, win0_0.index t (0 : Fin 2) = t.val / 16 ∧ win0_0.index t (1 : Fin 2) = t.val % 4 :=
  (by decide +kernel : ∀ t : Fin grid0.N, _)
theorem idx_w : ∀ t : Fin cfg0.N, win0_1.index t (0 : Fin 2) = t.val / 4 % 4 ∧ win0_1.index t (1 : Fin 2) = t.val % 4 :=
  (by decide +kernel : ∀ t : Fin grid0.N, _)
theorem idx_b : ∀ t : Fin cfg0.N, win0_2.index t (0 : Fin 2) = t.val / 4 % 4 ∧ win0_2.index t (1 : Fin 2) = 0 :=
  (by decide +kernel : ∀ t : Fin grid0.N, _)
theorem idx_a : ∀ t : Fin cfg0.N, win0_3.index t (0 : Fin 2) = 0 ∧ win0_3.index t (1 : Fin 2) = t.val % 4 :=
  (by decide +kernel : ∀ t : Fin grid0.N, _)
theorem idx_bias : ∀ t : Fin cfg0.N, win0_4.index t (0 : Fin 2) = 0 ∧ win0_4.index t (1 : Fin 2) = t.val / 4 % 4 :=
  (by decide +kernel : ∀ t : Fin grid0.N, _)
theorem idx_out : ∀ t : Fin cfg0.N, win0_5.index t (0 : Fin 2) = t.val / 16 ∧ win0_5.index t (1 : Fin 2) = t.val / 4 % 4 :=
  (by decide +kernel : ∀ t : Fin grid0.N, _)

/-! ## The blocks at a local index -/

theorem xblk_at (c : Dev nD) (t : Fin cfg0.N) (y : S512x1024.Idx) (n : Fin 8192) (i : Fin 4096)
    (hn : n.val = 512 * (t.val / 16) + (y 0).val) (hi : i.val = 1024 * (t.val % 4) + (y 1).val) :
    xblk m c t y = X m c (ix2 n i) := by
  rw [← V_v0]
  show V m c main_v0 (((cfg0.win 0).blk t).view.emb y) = V m c main_v0 (ix2 n i)
  refine congrArg _ (funext fun a => Fin.ext ?_)
  match a with
  | ⟨0, _⟩ => show win0_0.index t (0 : Fin 2) * 512 + 1 * (y 0).val = n.val; rw [(idx_x t).1]; omega
  | ⟨1, _⟩ => show win0_0.index t (1 : Fin 2) * 1024 + 1 * (y 1).val = i.val; rw [(idx_x t).2]; omega

theorem wblk_at (c : Dev nD) (t : Fin cfg0.N) (y : S1024x1024.Idx) (o i : Fin 4096)
    (ho : o.val = 1024 * (t.val / 4 % 4) + (y 0).val) (hi : i.val = 1024 * (t.val % 4) + (y 1).val) :
    wblk m c t y = W m c (ix2 o i) := by
  rw [← V_v1]
  show V m c main_v1 (((cfg0.win 1).blk t).view.emb y) = V m c main_v1 (ix2 o i)
  refine congrArg _ (funext fun a => Fin.ext ?_)
  match a with
  | ⟨0, _⟩ => show win0_1.index t (0 : Fin 2) * 1024 + 1 * (y 0).val = o.val; rw [(idx_w t).1]; omega
  | ⟨1, _⟩ => show win0_1.index t (1 : Fin 2) * 1024 + 1 * (y 1).val = i.val; rw [(idx_w t).2]; omega

theorem bblk_at (c : Dev nD) (t : Fin cfg0.N) (y : S1024x16.Idx) (o : Fin 4096) (r : Fin 16)
    (ho : o.val = 1024 * (t.val / 4 % 4) + (y 0).val) (hr : r.val = (y 1).val) :
    bblk m c t y = B m c (ix2 o r) * Sc m c ix0 := by
  have e : V m c main_v4 (ix2 o r) = B m c (ix2 o r) * Sc m c ix0 := by
    rw [V_v4, mulf_apply, broadcastInDim_apply _ bcast_S_S4096x16 (Sc m c) (ix2 o r) ix0 (fun a => a.elim0)]
  rw [← e]
  show V m c main_v4 (((cfg0.win 2).blk t).view.emb y) = V m c main_v4 (ix2 o r)
  refine congrArg _ (funext fun a => Fin.ext ?_)
  match a with
  | ⟨0, _⟩ => show win0_2.index t (0 : Fin 2) * 1024 + 1 * (y 0).val = o.val; rw [(idx_b t).1]; omega
  | ⟨1, _⟩ => show win0_2.index t (1 : Fin 2) * 16 + 1 * (y 1).val = r.val; rw [(idx_b t).2]; omega

theorem ablk_at (c : Dev nD) (t : Fin cfg0.N) (y : S16x1024.Idx) (r : Fin 16) (i : Fin 4096)
    (hr : r.val = (y 0).val) (hi : i.val = 1024 * (t.val % 4) + (y 1).val) :
    ablk m c t y = A m c (ix2 r i) := by
  rw [← V_v5]
  show V m c main_v5 (((cfg0.win 3).blk t).view.emb y) = V m c main_v5 (ix2 r i)
  refine congrArg _ (funext fun a => Fin.ext ?_)
  match a with
  | ⟨0, _⟩ => show win0_3.index t (0 : Fin 2) * 16 + 1 * (y 0).val = r.val; rw [(idx_a t).1]; omega
  | ⟨1, _⟩ => show win0_3.index t (1 : Fin 2) * 1024 + 1 * (y 1).val = i.val; rw [(idx_a t).2]; omega

theorem biasblk_at (c : Dev nD) (t : Fin cfg0.N) (y : S1x1024.Idx) (o : Fin 4096)
    (ho : o.val = 1024 * (t.val / 4 % 4) + (y 1).val) :
    biasblk m c t y = Bias m c (ix1 o) := by
  have e : V m c main_v6 (ix2 (0 : Fin 1) o) = Bias m c (ix1 o) := by
    rw [V_v6]
    exact shapeCast_a_1a_apply _ _ _ _
  rw [← e]
  show V m c main_v6 (((cfg0.win 4).blk t).view.emb y) = V m c main_v6 (ix2 (0 : Fin 1) o)
  refine congrArg _ (funext fun a => Fin.ext ?_)
  match a with
  | ⟨0, _⟩ => show win0_4.index t (0 : Fin 2) * 1 + 1 * (y 0).val = 0; rw [(idx_bias t).1]; have h0 : (y 0).val < 1 := (y 0).isLt; omega
  | ⟨1, _⟩ => show win0_4.index t (1 : Fin 2) * 1024 + 1 * (y 1).val = o.val; rw [(idx_bias t).2]; omega

end Cert.KernelIdeal.Blocks

end
-- ==== Proof.LoraLaw.lean ====
/-
  The mathematics of the low-rank-adapted linear layer, with no program in sight.

  The layer computes, for a token row `n` and an output feature `o`,
      out[n, o] = (Σ_i x[n, i] · (W[o, i] + s · Σ_r B[o, r] · A[r, i])) + bias[o]
  over the extended reals.  Two facts join the two ways of computing it:
    * when `s`, `B`, `A` are real numbers, the scalar `s` moves inside the rank sum onto `B`:
      `s · Σ_r B_r · A_r = Σ_r (B_r · s) · A_r` (distributivity, which the extended reals have only
      away from the infinities: this is where finiteness is used);
    * a sum over 4096 indices is the sum over four consecutive runs of 1024 (re-grouping a finite sum:
      commutativity and associativity of `+` only, so it holds for all extended reals).
-/
import Idealize.ShloMosaic.PureOps.Ideal
import Idealize.ShloMosaic.Lib.ValueIdx

noncomputable section

open scoped BigOperators

namespace Cert.Lora

open Idealize.ShloMosaic Idealize.ShloMosaic.ValueIdx

/-! ## Real sums inside the extended reals -/

/-- The coercion of a finite real sum is the sum of the coercions. -/
theorem coe_sum {ι : Type*} (t : Finset ι) (f : ι → ℝ) :
    ((∑ r ∈ t, f r : ℝ) : EReal) = ∑ r ∈ t, (f r : EReal) := by
  classical
  induction t using Finset.induction_on with
  | empty => simp
  | insert a t ha ih => rw [Finset.sum_insert ha, Finset.sum_insert ha, EReal.coe_add, ih]

/-- For real `s`, `B_r`, `A_r`: `s · Σ_r B_r · A_r = Σ_r (B_r · s) · A_r`. -/
theorem scale_into_sum {ι : Type*} [Fintype ι] (σ : ℝ) (b a : ι → ℝ) :
    (σ : EReal) * ∑ r, (b r : EReal) * (a r : EReal) = ∑ r, ((b r : EReal) * (σ : EReal)) * (a r : EReal) := by
  simp only [← EReal.coe_mul]
  rw [← coe_sum, ← coe_sum, ← EReal.coe_mul, Finset.mul_sum]
  congr 1
  exact Finset.sum_congr rfl fun r _ => by ring

/-- The same for extended reals known to be real. -/
theorem scale_into_sum_of_real {ι : Type*} [Fintype ι] (s : EReal) (B A : ι → EReal)
    (hs : ∃ σ : ℝ, s = σ) (hB : ∀ r, ∃ b : ℝ, B r = b) (hA : ∀ r, ∃ a : ℝ, A r = a) :
    s * ∑ r, B r * A r = ∑ r, (B r * s) * A r := by
  obtain ⟨σ, rfl⟩ := hs
  choose b hb using hB
  choose a ha using hA
  simp only [hb, ha]
  exact scale_into_sum σ b a

/-! ## A sum over 4096 indices, in four runs of 1024 -/

/-- `Σ_{q<4} Σ_{k<1024} g (1024·q + k) = Σ_{i<4096} g i`, in any commutative monoid. -/
theorem sum_four_runs {M : Type*} [AddCommMonoid M] (g : ℕ → M) :
    ∑ q ∈ Finset.range 4, ∑ k : Fin 1024, g (1024 * q + k.val) = ∑ i : Fin 4096, g i.val := by
  rw [← Fin.sum_univ_eq_sum_range (fun q => ∑ k : Fin 1024, g (1024 * q + k.val)) 4]
  rw [← Equiv.sum_comp (finProdFinEquiv (m := 4) (n := 1024)) (fun i : Fin (4 * 1024) => g i.val),
    Fintype.sum_prod_type]
  refine Finset.sum_congr rfl fun q _ => Finset.sum_congr rfl fun k _ => ?_
  show g (1024 * q.val + k.val) = g (k.val + 1024 * q.val)
  rw [Nat.add_comm]

/-! ## The layer, as one function of its arguments -/

abbrev Sx : Shape := ⟨2, ![8192, 4096]⟩
abbrev Sw : Shape := ⟨2, ![4096, 4096]⟩
abbrev Sbias : Shape := ⟨1, ![4096]⟩
abbrev SB : Shape := ⟨2, ![4096, 16]⟩
abbrev SA : Shape := ⟨2, ![16, 4096]⟩
abbrev S0 : Shape := ⟨0, ![]⟩

/-- The adapted weight `W[o, i] + s · Σ_r B[o, r] · A[r, i]`. -/
def weight (W : Sw.Idx → EReal) (B : SB.Idx → EReal) (A : SA.Idx → EReal) (s : S0.Idx → EReal)
    (o i : Fin 4096) : EReal :=
  W (ix2 o i) + s ix0 * ∑ r : Fin 16, B (ix2 o r) * A (ix2 r i)

/-- The adapted weight with the scalar already on `B`: `W[o, i] + Σ_r (B[o, r] · s) · A[r, i]`. -/
def weightScaled (W : Sw.Idx → EReal) (B : SB.Idx → EReal) (A : SA.Idx → EReal) (s : S0.Idx → EReal)
    (o i : Fin 4096) : EReal :=
  W (ix2 o i) + ∑ r : Fin 16, (B (ix2 o r) * s ix0) * A (ix2 r i)

/-- With `s`, `B`, `A` real the two weights are the same number. -/
theorem weightScaled_eq (W : Sw.Idx → EReal) (B : SB.Idx → EReal) (A : SA.Idx → EReal) (s : S0.Idx → EReal)
    (hs : ∀ j, ∃ σ : ℝ, s j = σ) (hB : ∀ j, ∃ b : ℝ, B j = b) (hA : ∀ j, ∃ a : ℝ, A j = a) (o i : Fin 4096) :
    weightScaled W B A s o i = weight W B A s o i := by
  unfold weightScaled weight
  rw [scale_into_sum_of_real (s ix0) (fun r => B (ix2 o r)) (fun r => A (ix2 r i)) (hs _) (fun _ => hB _) (fun _ => hA _)]

/-- The layer's output at row `n`, feature `o`. -/
def outAt (x : Sx.Idx → EReal) (W : Sw.Idx → EReal) (bias : Sbias.Idx → EReal) (B : SB.Idx → EReal)
    (A : SA.Idx → EReal) (s : S0.Idx → EReal) (n : Fin 8192) (o : Fin 4096) : EReal :=
  (∑ i : Fin 4096, x (ix2 n i) * weight W B A s o i) + bias (ix1 o)

/-- The layer's output array. -/
def out (x : Sx.Idx → EReal) (W : Sw.Idx → EReal) (bias : Sbias.Idx → EReal) (B : SB.Idx → EReal)
    (A : SA.Idx → EReal) (s : S0.Idx → EReal) : Sx.Idx → EReal :=
  fun j => outAt x W bias B A s ⟨(j 0).val, (j 0).isLt⟩ ⟨(j 1).val, (j 1).isLt⟩

/-- The blocked accumulation — zero, plus four partial products over runs of 1024 of the contracted axis, plus the
    bias — is the layer's output, for real `s`, `B`, `A`.  `xr`, `wr` are the row of `x` and the row of the scaled
    weight as functions of the contracted position. -/
theorem blocked_eq_outAt (x : Sx.Idx → EReal) (W : Sw.Idx → EReal) (bias : Sbias.Idx → EReal) (B : SB.Idx → EReal)
    (A : SA.Idx → EReal) (s : S0.Idx → EReal)
    (hs : ∀ j, ∃ σ : ℝ, s j = σ) (hB : ∀ j, ∃ b : ℝ, B j = b) (hA : ∀ j, ∃ a : ℝ, A j = a)
    (n : Fin 8192) (o : Fin 4096) (g : ℕ → EReal)
    (hg : ∀ i : Fin 4096, g i.val = x (ix2 n i) * weightScaled W B A s o i) :
    (0 + ∑ q ∈ Finset.range 4, ∑ k : Fin 1024, g (1024 * q + k.val)) + bias (ix1 o) = outAt x W bias B A s n o := by
  unfold outAt
  rw [zero_add, sum_four_runs]
  congr 1
  exact Finset.sum_congr rfl fun i _ => by rw [hg i, weightScaled_eq W B A s hs hB hA]

end Cert.Lora

end
-- ==== Proof.KernelFold.lean ====
/-
  The running sum, and the block a run of four steps writes back.

  Along the contracted axis a run is four consecutive grid points `4u, 4u+1, 4u+2, 4u+3` (same row tile, same
  feature tile, steps 0 … 3).  Step `s` adds, at the block's entry (p, q),
      Σ_{k<1024} x[n, 1024·s + k] · w̃[o, 1024·s + k],      n = 512·(row tile) + p,  o = 1024·(feature tile) + q,
  where `w̃[o, i] = W[o, i] + Σ_r (B[o, r]·s)·A[r, i]` is the adapted weight with the scalar on `B`.  The scratch
  after step `s` is zero plus the addends of steps `0 … s` (the fold of the accumulation, unrolled); after the last
  step the output block holds that sum plus `bias[o]`.  With `s`, `B`, `A` real this is the layer's output at
  (n, o): the four runs of 1024 make up the 4096 contracted positions.
-/
import proofs.«125330_j30451318128976_1_alg».proof.Proof.Gen.KernelIdeal.Value
import proofs.«125330_j30451318128976_1_alg».proof.Proof.KernelPieces
import proofs.«125330_j30451318128976_1_alg».proof.Proof.KernelPayload
import proofs.«125330_j30451318128976_1_alg».proof.Proof.KernelBlocks
import proofs.«125330_j30451318128976_1_alg».proof.Proof.LoraLaw

noncomputable section

open Idealize.ShloMosaic Idealize.ShloMosaic.TcCoe Idealize.SL.Sem

namespace Cert.KernelIdeal.Fold

open Cert.KernelIdeal Cert.KernelIdeal.Gen Cert.KernelIdeal.Blocks Cert.KernelIdeal.Payload Cert.KernelIdeal.Pieces
open Idealize.ShloMosaic.ValueIdx

variable (m : (ℓ : Loc nD τ sig) → Buf (Elt Ideal) ℓ)

/-- Point `n`'s addend to the running sum at a block entry (zero past the grid, where it is never used). -/
def stepAdd (c : Dev nD) (n : ℕ) (j : S512x1024.Idx) : EReal :=
  if h : n < cfg0.N then
    addend (bblk m c ⟨n, h⟩) (ablk m c ⟨n, h⟩) (wblk m c ⟨n, h⟩) (xblk m c ⟨n, h⟩) j
  else 0

/-- At the first point of a run the scratch ends at `0 + addend`, whatever it held. -/
theorem scAt_first (c : Dev nD) (n : ℕ) (hb : n < cfg0.N) (h0 : n % 4 = 0) (acc : Vec Ideal S512x1024 .f32)
    (j : S512x1024.Idx) : Value.scAt0_0 m c n hb acc j = 0 + stepAdd m c n j := by
  have hN := lt_of_lt_of_eq hb (show cfg0.N = 256 from N_0)
  unfold Value.scAt0_0
  rw [dif_pos h0, dif_neg (by omega), scratch_A, pay2_apply, pay1_apply]
  unfold stepAdd
  rw [dif_pos hb]

/-- At every later point of a run it ends at what the point before left plus the addend. -/
theorem scAt_later (c : Dev nD) (n : ℕ) (hb : n < cfg0.N) (h0 : ¬n % 4 = 0) (acc : Vec Ideal S512x1024 .f32)
    (j : S512x1024.Idx) : Value.scAt0_0 m c n hb acc j = acc j + stepAdd m c n j := by
  unfold Value.scAt0_0
  rw [dif_neg h0]
  by_cases h1 : n % 4 = 3
  · rw [dif_pos h1, scratch_C, pay2_apply]
    unfold stepAdd
    rw [dif_pos hb]
  · rw [dif_neg h1, scratch_B, pay2_apply]
    unfold stepAdd
    rw [dif_pos hb]

/-- The scratch after point `t`: zero plus the addends of the run's points up to `t`. -/
theorem scratch_after (c : Dev nD) (t : Fin cfg0.N) (j : S512x1024.Idx) :
    (outsAt0 m c t.val t.isLt).2 j
      = 0 + ∑ s ∈ Finset.range (t.val % 4 + 1), stepAdd m c (4 * (t.val / 4) + s) j := by
  rw [Value.soutsAt0_0_eq m c t]
  exact Pipeline.accAt_add_apply (ι := S512x1024.Idx) (β := EReal)
    (fun n h => Value.scAt0_0 m c n h (VS0_0.read (Elt Ideal) VS0_0.junk)) (Value.scAt0_0 m c)
    (fun _ => 0) (stepAdd m c) (4 * (t.val / 4)) 3
    (fun h i => scAt_first m c _ h (by omega) _ i)
    (fun n h acc i hlt hle => scAt_later m c n h (by omega) acc i)
    (t.val % 4) (by omega) _ j

/-- The output block after the last point of a run: the scratch there plus the bias row's entry. -/
theorem out_after (c : Dev nD) (t : Fin cfg0.N) (h3 : t.val % 4 = 3) (j : S512x1024.Idx) :
    (outsAt0 m c t.val t.isLt).1 j
      = (outsAt0 m c t.val t.isLt).2 j + biasblk m c t (ix2 (0 : Fin 1) (⟨(j 1).val, (j 1).isLt⟩ : Fin 1024)) := by
  rw [outsAt0_C m c t (by omega) h3]
  dsimp only
  rw [out_C, scratch_C, pay3_apply]

/-- Row `n` of `x` times row `o` of the adapted weight (scalar on `B`), by contracted position (zero past 4096). -/
def rowProd (c : Dev nD) (n : Fin 8192) (o : Fin 4096) (i : ℕ) : EReal :=
  if h : i < 4096 then
    X m c (ix2 n ⟨i, h⟩) * Cert.Lora.weightScaled (W m c) (B m c) (A m c) (Sc m c) o ⟨i, h⟩
  else 0

/-- A point's addend at entry (p, q) is the run of 1024 products at the point's step. -/
theorem stepAdd_eq (c : Dev nD) (t : Fin cfg0.N) (j : S512x1024.Idx) (n : Fin 8192) (o : Fin 4096)
    (hn : n.val = 512 * (t.val / 16) + (j 0).val) (ho : o.val = 1024 * (t.val / 4 % 4) + (j 1).val) :
    stepAdd m c t.val j = ∑ k : Fin 1024, rowProd m c n o (1024 * (t.val % 4) + k.val) := by
  unfold stepAdd addend
  rw [dif_pos t.isLt]
  refine Finset.sum_congr rfl fun k _ => ?_
  have hk : 1024 * (t.val % 4) + k.val < 4096 := by have := k.isLt; omega
  unfold rowProd
  rw [dif_pos hk]
  unfold Cert.Lora.weightScaled
  rw [xblk_at m c t (xix j k) n ⟨_, hk⟩ hn rfl, wblk_at m c t (wix j k) o ⟨_, hk⟩ ho rfl]
  refine congrArg (fun z => X m c (ix2 n ⟨_, hk⟩) * (W m c (ix2 o ⟨_, hk⟩) + z)) (Finset.sum_congr rfl fun r _ => ?_)
  rw [bblk_at m c t (bix (wix j k) r) o r ho rfl, ablk_at m c t (aix (wix j k) r) r ⟨_, hk⟩ rfl rfl]

/-- THE BLOCK'S VALUE: after the last point of a run the output block's entry (p, q) is the layer's output at
    (n, o), for real `s`, `B`, `A`. -/
theorem out_value (c : Dev nD) (t : Fin cfg0.N) (h3 : t.val % 4 = 3) (j : S512x1024.Idx) (n : Fin 8192) (o : Fin 4096)
    (hn : n.val = 512 * (t.val / 16) + (j 0).val) (ho : o.val = 1024 * (t.val / 4 % 4) + (j 1).val)
    (hs : ∀ i, ∃ σ : ℝ, Sc m c i = σ) (hB : ∀ i, ∃ b : ℝ, B m c i = b) (hA : ∀ i, ∃ a : ℝ, A m c i = a) :
    (outsAt0 m c t.val t.isLt).1 j
      = Cert.Lora.outAt (X m c) (W m c) (Bias m c) (B m c) (A m c) (Sc m c) n o := by
  have hN : cfg0.N = 256 := N_0
  have ht := t.isLt
  rw [out_after m c t h3, scratch_after, biasblk_at m c t _ o ho, h3]
  have e : ∀ s ∈ Finset.range (3 + 1), stepAdd m c (4 * (t.val / 4) + s) j
      = ∑ k : Fin 1024, rowProd m c n o (1024 * s + k.val) := by
    intro s hs
    have hs4 : s < 4 := Finset.mem_range.mp hs
    have hb : 4 * (t.val / 4) + s < cfg0.N := by omega
    have e1 := stepAdd_eq m c ⟨4 * (t.val / 4) + s, hb⟩ j n o (by show n.val = 512 * ((4 * (t.val / 4) + s) / 16) + (j 0).val; omega)
      (by show o.val = 1024 * ((4 * (t.val / 4) + s) / 4 % 4) + (j 1).val; omega)
    have e2 : (4 * (t.val / 4) + s) % 4 = s := by omega
    rw [e2] at e1
    exact e1
  rw [Finset.sum_congr rfl e]
  exact Cert.Lora.blocked_eq_outAt (X m c) (W m c) (Bias m c) (B m c) (A m c) (Sc m c) hs hB hA n o (rowProd m c n o)
    (fun i => by unfold rowProd; rw [dif_pos i.isLt])

end Cert.KernelIdeal.Fold

end
-- ==== Proof.KernelResult.lean ====
/-
  From blocks to the array.  The output block is written back at the last step of each run, to rows
  512·(t/16) … + 511 and columns 1024·(t/4%4) … + 1023 of the [8192, 4096] result.  Every entry (n, o) of the result
  lies in exactly the block of row tile n/512 and feature tile o/1024, written back at the point
  16·(n/512) + 4·(o/1024) + 3; what is written there is the layer's output at (n, o).  So the result array ends
  holding the layer's output.
-/
import proofs.«125330_j30451318128976_1_alg».proof.Proof.KernelFold

noncomputable section

open Idealize.ShloMosaic Idealize.ShloMosaic.TcCoe Idealize.SL.Sem

namespace Cert.KernelIdeal.Result

open Cert.KernelIdeal Cert.KernelIdeal.Gen Cert.KernelIdeal.Blocks Cert.KernelIdeal.Fold
open Idealize.ShloMosaic.ValueIdx
open Idealize.ShloMosaic.Pipeline (Dat)

variable (m : (ℓ : Loc nD τ sig) → Buf (Elt Ideal) ℓ) (ρ : Dev nD → PrngReg)

/-- The layer's output of the launch arguments, as contents of the result array. -/
abbrev layerOut (c : Dev nD) : Buf (Elt Ideal) ((c : Thread nD τ).loc main_v7) :=
  Cert.Lora.out (X m c) (W m c) (Bias m c) (B m c) (A m c) (Sc m c)

/-- What a write-back writes is that block of the layer's output. -/
theorem flushed_eq (c : Dev nD)
    (hs : ∀ i, ∃ σ : ℝ, Sc m c i = σ) (hB : ∀ i, ∃ b : ℝ, B m c i = b) (hA : ∀ i, ∃ a : ℝ, A m c i = a)
    (t : Fin cfg0.N) (hf : (cfg0.win 5).flush t = true) :
    (dats m 0 c).flushed 5 t = ((cfg0.win 5).blk t).view.read (Elt Ideal) (layerOut m c) := by
  have h3 : t.val % 4 = 3 := (flush0_5 t).mp hf
  rw [Value.flushed5]
  funext y
  show (outsAt0 m c t.val t.isLt).1 y = layerOut m c (((cfg0.win 5).blk t).view.emb y)
  exact out_value m c t h3 y _ _
    (by show win0_5.index t (0 : Fin 2) * 512 + 1 * (y 0).val = 512 * (t.val / 16) + (y 0).val; rw [(idx_out t).1]; omega)
    (by show win0_5.index t (1 : Fin 2) * 1024 + 1 * (y 1).val = 1024 * (t.val / 4 % 4) + (y 1).val; rw [(idx_out t).2]; omega)
    hs hB hA

/-- An entry of the result is in point `t`'s block iff each coordinate is in the block's range on its axis. -/
theorem mem_blk (t : Fin cfg0.N) (i : S8192x4096.Idx) :
    i ∈ ((cfg0.win 5).blk t).view.set ↔ ∀ a : Fin 2, win0_5.index t a * S512x1024.size a ≤ (i a).val
      ∧ (i a).val < win0_5.index t a * S512x1024.size a + S512x1024.size a := by
  show i ∈ ((View.whole main_v7).slice (win0_5.rect t)).set ↔ _
  rw [View.set_slice_whole, Rect.mem_set_unit]
  exact Iff.rfl

/-- Every entry of the result is in the block some write-back writes. -/
theorem cover (i : S8192x4096.Idx) :
    ∃ t : Fin cfg0.N, (cfg0.win 5).flush t = true ∧ i ∈ ((cfg0.win 5).blk t).view.set := by
  have hN : cfg0.N = 256 := N_0
  have hi0 : (i 0).val < 8192 := (i 0).isLt
  have hi1 : (i 1).val < 4096 := (i 1).isLt
  have hlt : 16 * ((i 0).val / 512) + 4 * ((i 1).val / 1024) + 3 < cfg0.N := by omega
  refine ⟨⟨16 * ((i 0).val / 512) + 4 * ((i 1).val / 1024) + 3, hlt⟩, (flush0_5 _).mpr (by dsimp only; omega), ?_⟩
  rw [mem_blk]
  obtain ⟨e0, e1⟩ := idx_out ⟨16 * ((i 0).val / 512) + 4 * ((i 1).val / 1024) + 3, hlt⟩
  dsimp only at e0 e1
  intro a
  match a with
  | ⟨0, _⟩ =>
    show win0_5.index _ (0 : Fin 2) * 512 ≤ (i 0).val ∧ (i 0).val < win0_5.index _ (0 : Fin 2) * 512 + 512
    rw [e0]; omega
  | ⟨1, _⟩ =>
    show win0_5.index _ (1 : Fin 2) * 1024 ≤ (i 1).val ∧ (i 1).val < win0_5.index _ (1 : Fin 2) * 1024 + 1024
    rw [e1]; omega

/-- The result array after the run is the layer's output. -/
theorem final (c : Dev nD)
    (hs : ∀ i, ∃ σ : ℝ, Sc m c i = σ) (hB : ∀ i, ∃ b : ℝ, B m c i = b) (hA : ∀ i, ∃ a : ℝ, A m c i = a) :
    (dats m 0 c).arrAt 5 cfg0.N = layerOut m c :=
  (dats m 0 c).arrAt_eq_of_cover 5 (layerOut m c) (flushed_eq m c hs hB hA) cover

/-- The kernel's run, read: the result at the layer's output of the arguments, the arguments unchanged. -/
theorem run (hs : ∀ c i, ∃ σ : ℝ, Sc m c i = σ) (hB : ∀ c i, ∃ b : ℝ, B m c i = b) (hA : ∀ c i, ∃ a : ℝ, A m c i = a) :
    θ_run defs (onTc (τ := τ) (main (F := Ideal))) ⟨m, fun _ => 0, ρ⟩ fun r => ∀ c : Dev nD,
      r.2.mem ((c : Thread nD τ).loc main_v7) = layerOut m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m c (hs c) (hB c) (hA c)), (h c).2⟩)
    (Value.run_blocks m ρ)

end Cert.KernelIdeal.Result

end
-- ==== Proof.RefIsLayer.lean ====
/-
  The reference computes the layer.  Read one operation at a time, its result at row `n`, feature `o` is
      (Σ_i x[n, i] · (W[o, i] + s · Σ_r B[o, r] · A[r, i])) + bias[o]:
  the inner product `B @ A`, scaled by the broadcast scalar, added to `W`, contracted with `x` along the input axis
  of both, plus the bias broadcast along the rows.  This is the specification `Cert.Lora.out` term by term; only the
  names of the indices differ.
-/
import proofs.«125330_j30451318128976_1_alg».proof.Proof.Gen.ReferenceIdeal.Read
import proofs.«125330_j30451318128976_1_alg».proof.Proof.LoraLaw

noncomputable section

namespace Cert.ReferenceIdeal.Spec

open Cert.ReferenceIdeal Cert.ReferenceIdeal.Gen Cert.ReferenceIdeal.Read
open Idealize.ShloMosaic Idealize.ShloMosaic.ValueIdx

/-- Row `n` of `x` at contracted position `k`. -/
theorem lidx4 (i : S8192x4096.Idx) (k : Fin 4096) :
    lidx_main_v4 i k = ix2 (⟨(i 0).val, (i 0).isLt⟩ : Fin 8192) k :=
  funext fun a => by match a with | ⟨0, _⟩ => rfl | ⟨1, _⟩ => rfl

/-- Row `o` of the weight at contracted position `k`. -/
theorem ridx4 (i : S8192x4096.Idx) (k : Fin 4096) :
    ridx_main_v4 i k = ix2 (⟨(i 1).val, (i 1).isLt⟩ : Fin 4096) k :=
  funext fun a => by match a with | ⟨0, _⟩ => rfl | ⟨1, _⟩ => rfl

/-- Row `o` of `B` at rank position `r`. -/
theorem lidx0 (o k : Fin 4096) (r : Fin 16) : lidx_main_v0 (ix2 o k) r = ix2 o r :=
  funext fun a => by match a with | ⟨0, _⟩ => rfl | ⟨1, _⟩ => rfl

/-- Column `k` of `A` at rank position `r`. -/
theorem ridx0 (o k : Fin 4096) (r : Fin 16) : ridx_main_v0 (ix2 o k) r = ix2 r k :=
  funext fun a => by match a with | ⟨0, _⟩ => rfl | ⟨1, _⟩ => rfl

/-- The bias entry the two broadcasts read at output index `i`. -/
theorem idx56 (i : S8192x4096.Idx) : idx_main_v5 (idx_main_v6 i) = ix1 (⟨(i 1).val, (i 1).isLt⟩ : Fin 4096) :=
  funext fun a => by match a with | ⟨0, _⟩ => rfl

/-- The reference's result is the layer's output. -/
theorem ref_eq_out (x0 : (⟨S8192x4096, .f32⟩ : BufTy).Contents (Elt Ideal)) (x1 : (⟨S4096x4096, .f32⟩ : BufTy).Contents (Elt Ideal))
    (x2 : (⟨S4096, .f32⟩ : BufTy).Contents (Elt Ideal)) (x3 : (⟨S4096x16, .f32⟩ : BufTy).Contents (Elt Ideal))
    (x4 : (⟨S16x4096, .f32⟩ : BufTy).Contents (Elt Ideal)) (x5 : (⟨S_, .f32⟩ : BufTy).Contents (Elt Ideal)) :
    val_main_v7 (F := Ideal) x0 x1 x2 x3 x4 x5 = Cert.Lora.out x0 x1 x2 x3 x4 x5 := by
  funext i
  rw [val_main_v7_apply, val_main_v4_apply, val_main_v6_apply, val_main_v5_apply, idx56]
  unfold Cert.Lora.out Cert.Lora.outAt
  refine congrArg (· + x2 (ix1 (⟨(i 1).val, (i 1).isLt⟩ : Fin 4096))) (Finset.sum_congr rfl fun k _ => ?_)
  rw [lidx4, ridx4, val_main_v3_apply, val_main_v2_apply, val_main_v1_apply, val_main_v0_apply]
  unfold Cert.Lora.weight
  simp only [lidx0, ridx0, Ideal.addf_def, Ideal.mulf_def]

end Cert.ReferenceIdeal.Spec

end
-- ==== Proof.Finite.lean ====
/-
  What the precondition gives: every entry of `lora_B`, of `lora_A` and the scalar `lora_scale` is a real
  number.  The precondition is a conjunction of six tests "every |entry| is below +∞"; an extended real whose
  absolute value is below +∞ is neither infinity, hence real.
-/
import proofs.«125330_j30451318128976_1_alg».proof.Pre_finite_inputs
import Idealize.ShloMosaic.Lib.ReduceAll
import Idealize.ShloMosaic.Lib.ValueIdx
import Idealize.ShloMosaic.PureOps.Ideal.Laws

noncomputable section

namespace Cert.Lora.Finite

open Idealize.ShloMosaic Idealize.ShloMosaic.ValueIdx Cert.Pre_finite_inputs

variable [Cert.Pre_finite_inputs.Facts]
open Cert.Pre_finite_inputs.Facts

instance : Subsingleton S_.Idx := ⟨fun a b => funext fun d => d.elim0⟩

/-- The word `0x7F800000` is +∞. -/
theorem inf_word : Ideal.ofBits .f32 0x7F800000#32 = (⊤ : EReal) := by simp [Ideal.ofBits, Ideal.ieee]

/-- An extended real whose absolute value is below +∞ is a real number. -/
theorem real_of_abs_lt_top (x : EReal) (h : Ideal.cmp .olt (max x (-x)) ⊤ = 1#1) : ∃ r : ℝ, x = r := by
  induction x using EReal.rec with
  | bot => simp [Ideal.cmp] at h
  | coe r => exact ⟨r, rfl⟩
  | top => simp [Ideal.cmp] at h

/-- One test of the precondition at one entry: `|a i| < top i` with `top i = +∞` makes `a i` real. -/
theorem real_of_test {s : Shape} (a top : FVec Ideal s .f32) (htop : ∀ i, top i = (⊤ : EReal)) (i : s.Idx)
    (h : cmpf .olt (Host.absf a) top i = 1#1) : ∃ r : ℝ, a i = r := by
  apply real_of_abs_lt_top
  have e : cmpf .olt (Host.absf a) top i = Ideal.cmp .olt (max (a i) (-(a i))) (top i) := rfl
  rw [e, htop] at h
  exact h

/-- The broadcast of the scalar `+∞` is `+∞` everywhere. -/
theorem top_bcast {s : Shape} (hb : S_.BroadcastsInDim s (![] : Fin 0 → Fin s.rank)) (i : s.Idx) :
    broadcastInDim s ![] hb (constant (F := Ideal) S_ .f32 0x7F800000#32) i = (⊤ : EReal) := by
  unfold broadcastInDim
  exact inf_word

/-- Under the precondition `lora_B`, `lora_A` and `lora_scale` hold real numbers. -/
theorem real_of_pre (a0 : FVec Ideal S8192x4096 .f32) (a1 : FVec Ideal S4096x4096 .f32) (a2 : FVec Ideal S4096 .f32)
    (a3 : FVec Ideal S4096x16 .f32) (a4 : FVec Ideal S16x4096 .f32) (a5 : FVec Ideal S_ .f32)
    (h : fn (F := Ideal) a0 a1 a2 a3 a4 a5 = fun _ => 1#1) :
    (∀ j, ∃ r : ℝ, a3 j = r) ∧ (∀ j, ∃ r : ℝ, a4 j = r) ∧ (∀ j, ∃ r : ℝ, a5 j = r) := by
  have h0 := congrFun h ix0
  dsimp only [fn, fn_part1] at h0
  obtain ⟨h01234, h5⟩ := IntOp.andi_eq_one.1 h0
  obtain ⟨h0123, h4⟩ := IntOp.andi_eq_one.1 h01234
  obtain ⟨_, h3⟩ := IntOp.andi_eq_one.1 h0123
  refine ⟨fun j => ?_, fun j => ?_, fun j => ?_⟩
  · exact real_of_test a3 _ (top_bcast bcast_S_S4096x16) j (Host.reduce_andi_all _ _ _ _ ix0 h3 j)
  · exact real_of_test a4 _ (top_bcast bcast_S_S16x4096) j (Host.reduce_andi_all _ _ _ _ ix0 h4 j)
  · exact real_of_test a5 _ (fun _ => inf_word) j (Host.reduce_andi_all _ _ _ _ ix0 h5 j)

end Cert.Lora.Finite

end
-- ==== Proof.lean ====
/-
  A linear layer with a low-rank adapter: for tokens `x` [8192, 4096], weight `W` [4096, 4096], adapter factors
  `B` [4096, 16], `A` [16, 4096], a scalar `s` and a bias,
      out[n, o] = (Σ_i x[n, i] · (W[o, i] + s · Σ_r B[o, r] · A[r, i])) + bias[o].

  The reference computes exactly this: `B @ A`, scaled, added to `W`, contracted with `x`, plus the bias.
  The kernel scales `B` first, tiles the output into [512, 1024] blocks and walks the contracted axis in four steps of
  1024, forming the adapted weight tile `W + (B·s) @ A` on the fly and accumulating `x_tile · weight_tileᵀ` in a scratch
  block that is zeroed at the first step; the last step adds the bias and writes the block out.

  Over the extended reals the changes of float format are the identity, and the two agree because
    * for real `s`, `B`, `A` (the precondition: every input is finite) the scalar moves inside the rank sum onto `B`
      — distributivity, which needs the finiteness —, and
    * the four partial sums over runs of 1024 make up the sum over all 4096 contracted positions, and `0 + a = a`.
  The kernel's idealization rewrote nothing, so `preserves` is trivial; the three frames are the generated frames and,
  for the reference, its generated run with the result dropped.
-/
import proofs.«125330_j30451318128976_1_alg».proof.Defs
import proofs.«125330_j30451318128976_1_alg».proof.Proof.Gen.Kernel
import proofs.«125330_j30451318128976_1_alg».proof.Proof.Gen.Kernel.Skeleton
import proofs.«125330_j30451318128976_1_alg».proof.Proof.Gen.Kernel.Launch
import proofs.«125330_j30451318128976_1_alg».proof.Proof.Gen.Kernel.Points
import proofs.«125330_j30451318128976_1_alg».proof.Proof.Gen.Kernel.Frame
import proofs.«125330_j30451318128976_1_alg».proof.Proof.Gen.KernelIdeal
import proofs.«125330_j30451318128976_1_alg».proof.Proof.Gen.KernelIdeal.Skeleton
import proofs.«125330_j30451318128976_1_alg».proof.Proof.Gen.KernelIdeal.Launch
import proofs.«125330_j30451318128976_1_alg».proof.Proof.Gen.KernelIdeal.Points
import proofs.«125330_j30451318128976_1_alg».proof.Proof.Gen.KernelIdeal.Frame
import proofs.«125330_j30451318128976_1_alg».proof.Proof.Gen.ReferenceIdeal
import proofs.«125330_j30451318128976_1_alg».proof.Proof.Gen.Pre_finite_inputs
import proofs.«125330_j30451318128976_1_alg».proof.Proof.Gen.KernelIdeal.Value
import proofs.«125330_j30451318128976_1_alg».proof.Proof.Gen.ReferenceIdeal.Run
import proofs.«125330_j30451318128976_1_alg».proof.Proof.Gen.ReferenceIdeal.Read
import proofs.«125330_j30451318128976_1_alg».proof.Proof.KernelResult
import proofs.«125330_j30451318128976_1_alg».proof.Proof.RefIsLayer
import proofs.«125330_j30451318128976_1_alg».proof.Proof.Finite
import Idealize.ShloMosaic.Adequacy
import Idealize.ShloMosaic.Init

noncomputable section

namespace Cert.Proof

open Idealize.ShloMosaic Idealize.ShloMosaic.TcCoe Idealize.SL.Sem

/-- The word-level kernel runs and leaves its arguments alone. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and leaves its arguments alone: its run, the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both programs end with the layer's output of the (agreeing) arguments. -/
theorem algebraic : Cert.algebraic_KernelIdeal_ReferenceIdeal := by
  intro m ρ m' ρ' hpre hagree
  have hreal := fun c => Cert.Lora.Finite.real_of_pre _ _ _ _ _ _ (hpre c)
  refine ⟨fun c => Cert.KernelIdeal.Result.layerOut m c,
    Cert.KernelIdeal.Result.run m ρ (fun c => (hreal c).2.2) (fun c => (hreal c).1) (fun c => (hreal c).2.1), ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2.1, (hagree c).2.2.2.2.1, (hagree c).2.2.2.2.2]
  exact (Cert.ReferenceIdeal.Read.val_main_v7_eq _ _ _ _ _ _).trans (Cert.ReferenceIdeal.Spec.ref_eq_out _ _ _ _ _ _)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
